-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x512 : Shape := ⟨2, ![8192, 512]⟩
abbrev S128x2048 : Shape := ⟨2, ![128, 2048]⟩
abbrev S2048 : Shape := ⟨1, ![2048]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S128x2048 : S_.BroadcastsInDim S128x2048 (![] : Fin 0 → Fin S128x2048.rank)
  reducesTo_S128x2048_S_d0_1 : S128x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S8192x128 .f32) (main_arg1 : FVec F S8192x512 .f32) (main_arg2 : FVec F S128x2048 .f32) (main_arg3 : FVec F S2048 .f32) (main_arg4 : IVec S2048 32) (main_arg5 : IVec S2048 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S128x2048 .f32 := Host.absf main_arg2
  let main_cst_2 : FVec F S_ .f32 := constant S_ .f32 0x7F800000#32
  let main_v10 : FVec F S128x2048 .f32 := broadcastInDim S128x2048 ![] bcast_S_S128x2048 main_cst_2
  let main_v11 : IVec S128x2048 1 := cmpf .olt main_v9 main_v10
  let main_c_3 : IVec S_ 1 := constantI S_ 1 1#1
  let main_v12 : IVec S_ 1 := (fun x v => Host.reduce IntOp.andi x v reducesTo_S128x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S8192x128 : Shape := ⟨2, ![8192, 128]⟩
abbrev S8192x512 : Shape := ⟨2, ![8192, 512]⟩
abbrev S128x2048 : Shape := ⟨2, ![128, 2048]⟩
abbrev S2048 : Shape := ⟨1, ![2048]⟩
abbrev S1x2048 : Shape := ⟨2, ![1, 2048]⟩
abbrev S2048x1 : Shape := ⟨2, ![2048, 1]⟩
abbrev S1x512 : Shape := ⟨2, ![1, 512]⟩
abbrev S2048x512 : Shape := ⟨2, ![2048, 512]⟩
abbrev S2048x1024 : Shape := ⟨2, ![2048, 1024]⟩
abbrev S512x128 : Shape := ⟨2, ![512, 128]⟩
abbrev S512x512 : Shape := ⟨2, ![512, 512]⟩
abbrev S512x2048 : Shape := ⟨2, ![512, 2048]⟩
abbrev S512x1024 : Shape := ⟨2, ![512, 1024]⟩

abbrev nBuf : Space → Nat
  | .hbm => 23
  | .vmem => 9
  | .smem => 0
  | _ => 0

abbrev bufTy : (tb : Table) → Fin (tcTables nBuf tb) → BufTy
  | .hbm, ⟨0, _⟩ => ⟨S8192x128, .f32⟩
  | .hbm, ⟨1, _⟩ => ⟨S8192x512, .f32⟩
  | .hbm, ⟨2, _⟩ => ⟨S128x2048, .f32⟩
  | .hbm, ⟨3, _⟩ => ⟨S2048, .f32⟩
  | .hbm, ⟨4, _⟩ => ⟨S2048, .i32⟩
  | .hbm, ⟨5, _⟩ => ⟨S2048, .i32⟩
  | .hbm, ⟨6, _⟩ => ⟨S8192x128, .bf16⟩
  | .hbm, ⟨7, _⟩ => ⟨S128x2048, .bf16⟩
  | .hbm, ⟨8, _⟩ => ⟨S1x2048, .f32⟩
  | .hbm, ⟨9, _⟩ => ⟨S2048x1, .i32⟩
  | .hbm, ⟨10, _⟩ => ⟨S1x512, .i32⟩
  | .hbm, ⟨11, _⟩ => ⟨S2048x512, .i32⟩
  | .hbm, ⟨12, _⟩ => ⟨S2048x512, .i32⟩
  | .hbm, ⟨13, _⟩ => ⟨S2048x512, .i1⟩
  | .hbm, ⟨14, _⟩ => ⟨S2048x512, .bf16⟩
  | .hbm, ⟨15, _⟩ => ⟨S2048x1, .i32⟩
  | .hbm, ⟨16, _⟩ => ⟨S1x512, .i32⟩
  | .hbm, ⟨17, _⟩ => ⟨S2048x512, .i32⟩
  | .hbm, ⟨18, _⟩ => ⟨S2048x512, .i32⟩
  | .hbm, ⟨19, _⟩ => ⟨S2048x512, .i1⟩
  | .hbm, ⟨20, _⟩ => ⟨S2048x512, .bf16⟩
  | .hbm, ⟨21, _⟩ => ⟨S2048x1024, .bf16⟩
  | .hbm, ⟨22, _⟩ => ⟨S8192x512, .f32⟩
  | .local _ .vmem, ⟨0, _⟩ => ⟨S512x128, .bf16⟩
  | .local _ .vmem, ⟨1, _⟩ => ⟨S512x128, .bf16⟩
  | .local _ .vmem, ⟨2, _⟩ => ⟨S512x512, .f32⟩
  | .local _ .vmem, ⟨3, _⟩ => ⟨S512x512, .f32⟩
  | .local _ .vmem, ⟨4, _⟩ => ⟨S128x2048, .bf16⟩
  | .local _ .vmem, ⟨5, _⟩ => ⟨S1x2048, .f32⟩
  | .local _ .vmem, ⟨6, _⟩ => ⟨S2048x1024, .bf16⟩
  | .local _ .vmem, ⟨7, _⟩ => ⟨S512x512, .f32⟩
  | .local _ .vmem, ⟨8, _⟩ => ⟨S512x512, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  shapeCasts_S2048_S1x2048 : S2048.ShapeCasts S1x2048
  bcast_S2048_S2048x1_0 : S2048.BroadcastsInDim S2048x1 (![0] : Fin 1 → Fin S2048x1.rank)
  bcast_S2048x1_S2048x512_0_1 : S2048x1.BroadcastsInDim S2048x512 (![0, 1] : Fin 2 → Fin S2048x512.rank)
  bcast_S1x512_S2048x512_0_1 : S1x512.BroadcastsInDim S2048x512 (![0, 1] : Fin 2 → Fin S2048x512.rank)
  concatenates_S2048x512_S2048x512_S2048x1024_d1 : Shape.Concatenates [S2048x512, S2048x512] S2048x1024 1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  slices_S512x1024_o0_0_S512x512 : S512x1024.Slices ![0, 0] S512x512
  slices_S512x1024_o0_512_S512x512 : S512x1024.Slices ![0, 512] S512x512
  inb_S512x512_S512x512_0_0 : ∀ a, (![0, 0] : Fin 2 → Nat) a + S512x512.size a ≤ S512x512.size a
  h_S512x512 : 0 < S512x512.numel
  dot_S512x128_S128x2048_S512x2048_1_0_0_1_n_n_wf : DotDims.WF S512x128 S128x2048 S512x2048 [1] [0] [0] [1] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .bf16 = 32 ∨ (Rect.block (s := S8192x128) S512x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .f32 = 32 ∨ (Rect.block (s := S8192x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S128x2048.size a
  hwx0_2 : ∀ i : grid0.Coords, EltTy.bits .bf16 = 32 ∨ (Rect.block (s := S128x2048) S128x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S2048x1024.size a
  hwx0_4 : ∀ i : grid0.Coords, EltTy.bits .bf16 = 32 ∨ (Rect.block (s := S2048x1024) S2048x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S8192x512.size a
  hwx0_5 : ∀ i : grid0.Coords, EltTy.bits .f32 = 32 ∨ (Rect.block (s := S8192x512) S512x512.size (cc0_transform_5 i) (hinb0_5 i)).WholeWords (EltTy.packing .f32)

variable [Facts₀]

def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S2048x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192x512 : Shape := ⟨2, ![8192, 512]⟩
abbrev S128x2048 : Shape := ⟨2, ![128, 2048]⟩
abbrev S2048 : Shape := ⟨1, ![2048]⟩
abbrev S8192x2048 : Shape := ⟨2, ![8192, 2048]⟩
abbrev S1x2048 : Shape := ⟨2, ![1, 2048]⟩
abbrev S_ : Shape := ⟨0, ![]⟩
abbrev S2048x8192 : Shape := ⟨2, ![2048, 8192]⟩
abbrev S512x8192 : Shape := ⟨2, ![512, 8192]⟩
abbrev S2048x1 : Shape := ⟨2, ![2048, 1]⟩

abbrev nBuf : Space → Nat
  | .hbm => 47
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x512, .f32⟩
  | .hbm, ⟨2, _⟩ => ⟨S128x2048, .f32⟩
  | .hbm, ⟨3, _⟩ => ⟨S2048, .f32⟩
  | .hbm, ⟨4, _⟩ => ⟨S2048, .i32⟩
  | .hbm, ⟨5, _⟩ => ⟨S2048, .i32⟩
  | .hbm, ⟨6, _⟩ => ⟨S8192x2048, .f32⟩
  | .hbm, ⟨7, _⟩ => ⟨S1x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S2048x8192, .f32⟩
  | .hbm, ⟨21, _⟩ => ⟨S_, .f32⟩
  | .hbm, ⟨22, _⟩ => ⟨S512x8192, .f32⟩
  | .hbm, ⟨23, _⟩ => ⟨S2048x1, .i32⟩
  | .hbm, ⟨24, _⟩ => ⟨S512x8192, .f32⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S8192x512, .f32⟩
  | .hbm, ⟨29, _⟩ => ⟨S8192x512, .f32⟩
  | .hbm, ⟨30, _⟩ => ⟨S2048x8192, .f32⟩
  | .hbm, ⟨31, _⟩ => ⟨S_, .f32⟩
  | .hbm, ⟨32, _⟩ => ⟨S512x8192, .f32⟩
  | .hbm, ⟨33, _⟩ => ⟨S2048x1, .i32⟩
  | .hbm, ⟨34, _⟩ => ⟨S512x8192, .f32⟩
  | .hbm, ⟨35, _⟩ => ⟨S8192x512, .f32⟩
  | .hbm, ⟨36, _⟩ => ⟨S8192x512, .f32⟩
  | .hbm, ⟨37, _⟩ => ⟨S_, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S_, .f32⟩
  | .hbm, ⟨44, _⟩ => ⟨S8192x512, .f32⟩
  | .hbm, ⟨45, _⟩ => ⟨S8192x512, .f32⟩
  | .hbm, ⟨46, _⟩ => ⟨S8192x512, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  transposes_S8192x2048_S2048x8192_1_0 : S8192x2048.Transposes [1, 0] S2048x8192
  bcast_S_S512x8192 : S_.BroadcastsInDim S512x8192 (![] : Fin 0 → Fin S512x8192.rank)
  bcast_S2048_S2048x1_0 : S2048.BroadcastsInDim S2048x1 (![0] : Fin 1 → Fin S2048x1.rank)
  transposes_S512x8192_S8192x512_1_0 : S512x8192.Transposes [1, 0] S8192x512
  bcast_S_S8192x512 : S_.BroadcastsInDim S8192x512 (![] : Fin 0 → Fin S8192x512.rank)
  dot_S8192x128_S128x2048_S8192x2048_1_0_0_1_n_n_wf : DotDims.WF S8192x128 S128x2048 S8192x2048 [1] [0] [0] [1] [] []
  scatter_S512x8192_S2048x1_S2048x8192_1_0_0_1_wf : ScatterDims.WF S512x8192 S2048x1 S2048x8192 [1] [0] [0] 1

variable [Facts₀]

def dot_S8192x128_S128x2048_S8192x2048_1_0_0_1_n_n : DotDims S8192x128 S128x2048 S8192x2048 where
  lhsContracting := [1]
  rhsContracting := [0]
  lhsNonContracting := [0]
  rhsNonContracting := [1]
  lhsBatch := []
  rhsBatch := []
  wf := dot_S8192x128_S128x2048_S8192x2048_1_0_0_1_n_n_wf
def scatter_S512x8192_S2048x1_S2048x8192_1_0_0_1 : ScatterDims S512x8192 S2048x1 S2048x8192 where
  updateWindowDims := [1]
  insertedWindowDims := [0]
  scatterDimsToOperandDims := [0]
  indexVectorDim := 1
  wf := scatter_S512x8192_S2048x1_S2048x8192_1_0_0_1_wf

class Facts : Prop extends Facts₀ where

variable [Facts]
-- ==== Proof.LibLogComplement.lean ====
/-
  The scalar law that joins the two programs.

  For a transition's logit z the kernel computes  0 − (max z 0 + log1p (exp (0 − |z − 0|))),
  the stable spelling of  −softplus z = −log (1 + eᶻ);  the reference computes
  log1p (−(1 / (1 + exp (−z)))) = log (1 − σ z)  with σ the logistic function.  On a REAL z these
  are one number:  1 − σ z = e⁻ᶻ / (1 + e⁻ᶻ) = 1 / (1 + eᶻ),  and
  log (1 + eᶻ) = max z 0 + log (1 + e^(−|z|))  (factor e^(max z 0) out of 1 + eᶻ).
  Both sides are stated over the extended reals with the ideal instance's operations; the law is
  proved where z is the image of a real, which is where finite inputs put every logit.
-/
import Idealize.ShloMosaic.PureOps.Ideal

noncomputable section

namespace Cert.LogComplement

open Idealize.ShloMosaic

/-- The kernel's spelling: minus the stable softplus. -/
def negSoftplus (z : EReal) : EReal :=
  0 - (max z 0 + Ideal.log1p (Ideal.exp (0 - max (z - 0) (-(z - 0)))))

/-- The reference's spelling: the logarithm of one minus the logistic function. -/
def logOneMinusSigmoid (z : EReal) : EReal :=
  Ideal.log1p (-(Ideal.div 1 (1 + Ideal.exp (-z))))

/-- The law over the reals: −(max z 0 + log (1 + e^(−|z|))) = log (1 − 1 / (1 + e⁻ᶻ)). -/
theorem real_law (z : ℝ) :
    -(max z 0 + Real.log (1 + Real.exp (-|z|))) = Real.log (1 - 1 / (1 + Real.exp (-z))) := by
  have hpos : 0 < 1 + Real.exp (-z) := by positivity
  have h1 : 1 - 1 / (1 + Real.exp (-z)) = Real.exp (-z) / (1 + Real.exp (-z)) := by
    rw [eq_div_iff hpos.ne', sub_mul, one_mul, div_mul_cancel₀ _ hpos.ne']; ring
  rw [h1, Real.log_div (Real.exp_pos _).ne' hpos.ne', Real.log_exp]
  rcases le_total 0 z with hz | hz
  · rw [max_eq_left hz, abs_of_nonneg hz]; ring
  · rw [max_eq_right hz, abs_of_nonpos hz, neg_neg]
    have h2 : 1 + Real.exp z = Real.exp z * (1 + Real.exp (-z)) := by
      rw [mul_add, mul_one, ← Real.exp_add, add_neg_cancel, Real.exp_zero]; ring
    rw [h2, Real.log_mul (Real.exp_pos _).ne' hpos.ne', Real.log_exp]; ring

/-- The coercion of the reals commutes with max. -/
theorem coe_max (a b : ℝ) : ((max a b : ℝ) : EReal) = max (a : EReal) (b : EReal) :=
  EReal.coe_strictMono.monotone.map_max

/-- log1p of (the image of) a real above −1 is the real logarithm of one plus it. -/
theorem log1p_coe {y : ℝ} (hy : 0 < 1 + y) : Ideal.log1p (y : EReal) = ((Real.log (1 + y) : ℝ) : EReal) := by
  unfold Ideal.log1p
  rw [← EReal.coe_one, ← EReal.coe_add, Ideal.log_coe, if_neg (not_le.2 hy)]

/-- The kernel's spelling at a real. -/
theorem negSoftplus_coe (z : ℝ) :
    negSoftplus (z : EReal) = ((-(max z 0 + Real.log (1 + Real.exp (-|z|))) : ℝ) : EReal) := by
  unfold negSoftplus
  have habs : max ((z : EReal) - 0) (-((z : EReal) - 0)) = ((|z| : ℝ) : EReal) := by
    rw [sub_zero, ← EReal.coe_neg, ← coe_max]; rfl
  have hexp : Ideal.exp (0 - ((|z| : ℝ) : EReal)) = ((Real.exp (-|z|) : ℝ) : EReal) := by
    rw [zero_sub, ← EReal.coe_neg, Ideal.exp_coe]
  rw [habs, hexp, log1p_coe (by positivity), ← EReal.coe_zero, ← coe_max, ← EReal.coe_add, ← EReal.coe_sub, zero_sub]

/-- The reference's spelling at a real. -/
theorem logOneMinusSigmoid_coe (z : ℝ) :
    logOneMinusSigmoid (z : EReal) = ((Real.log (1 - 1 / (1 + Real.exp (-z))) : ℝ) : EReal) := by
  unfold logOneMinusSigmoid
  have hpos : 0 < 1 + Real.exp (-z) := by positivity
  have hlt : 1 / (1 + Real.exp (-z)) < 1 := by
    rw [div_lt_one hpos]; linarith [Real.exp_pos (-z)]
  rw [← EReal.coe_neg, Ideal.exp_coe, ← EReal.coe_one, ← EReal.coe_add, Ideal.div_coe hpos.ne', EReal.coe_one, one_mul,
    ← EReal.coe_neg, log1p_coe (by linarith), ← sub_eq_add_neg]

/-- THE LAW: at a real logit the two spellings agree. -/
theorem negSoftplus_eq (z : ℝ) : negSoftplus (z : EReal) = logOneMinusSigmoid (z : EReal) := by
  rw [negSoftplus_coe, logOneMinusSigmoid_coe, real_law]

end Cert.LogComplement

end
-- ==== Proof.Spec.lean ====
/-
  The result as ONE function of the argument arrays.

  Row r, state s.  With logits  z r t = ∑ k, x (r, k) · W (k, t) + b t  and a per-transition log
  complement  ℓ r t = log (1 − σ (z r t)),  the two segment sums are

      F r s = ∑ over t with from_idx t = s of ℓ r t,      G r s = ∑ over t with to_idx t = s of ℓ r t

  (index words read signed; a word outside [0, 512) belongs to no state), and the new activation is
  and (or (a, to), not from)  with  to = 1 − e^G,  from = 1 − e^F  in the probabilistic fuzzy logic:

      result (r, s) = ((a + to) − a · to) · (1 − from).

  The kernel reaches the segment sums as a product with a one-hot matrix whose entry (t, s) is the bit
  of the word compare  idx t = s  read as a number; `sum_mul_onehot` is the law that this product is the
  segment sum — it needs no finiteness, since x · 1 = x and x · 0 = 0 on every extended real.
-/
import Idealize.ShloMosaic.PureOps.Ideal
import Idealize.ShloMosaic.Lib.ValueIdx
import Idealize.ShloMosaic.Lib.StableHlo.Predicate
import proofs.«422131_j38835094291104_2_alg».proof.Proof.LibLogComplement

noncomputable section

namespace Cert.Spec

open Idealize.ShloMosaic Idealize.ShloMosaic.ValueIdx Cert.LogComplement

/-- The float 1.0, as the word both programs print. -/
abbrev one : EReal := Ideal.ofBits .f32 0x3F800000#32

/-- One entry's update from its activation `a`, its from-sum `f` and its to-sum `g`. -/
def update (a f g : EReal) : EReal :=
  ((a + (one - Ideal.exp g)) - a * (one - Ideal.exp g)) * (one - (one - Ideal.exp f))

/-- Row `r`'s logit for transition `t`. -/
def logit (x : (⟨2, ![8192, 128]⟩ : Shape).Idx → EReal) (W : (⟨2, ![128, 2048]⟩ : Shape).Idx → EReal)
    (b : (⟨1, ![2048]⟩ : Shape).Idx → EReal) (r : Fin 8192) (t : Fin 2048) : EReal :=
  (∑ k : Fin 128, x (ix2 r k) * W (ix2 k t)) + b (ix1 t)

/-- The sum of `L t` over the transitions whose index word, read signed, is the state `s`. -/
def segSum (idx : (⟨1, ![2048]⟩ : Shape).Idx → BitVec 32) (L : Fin 2048 → EReal) (s : Fin 512) : EReal :=
  ∑ t : Fin 2048, if (idx (ix1 t)).toInt = (s.val : Int) then L t else 0

/-- THE RESULT, index by index. -/
def result (x : (⟨2, ![8192, 128]⟩ : Shape).Idx → EReal) (a : (⟨2, ![8192, 512]⟩ : Shape).Idx → EReal)
    (W : (⟨2, ![128, 2048]⟩ : Shape).Idx → EReal) (b : (⟨1, ![2048]⟩ : Shape).Idx → EReal)
    (fromIdx toIdx : (⟨1, ![2048]⟩ : Shape).Idx → BitVec 32) : (⟨2, ![8192, 512]⟩ : Shape).Idx → EReal :=
  fun i => update (a i)
    (segSum fromIdx (fun t => logOneMinusSigmoid (logit x W b (i 0) t)) (i 1))
    (segSum toIdx (fun t => logOneMinusSigmoid (logit x W b (i 0) t)) (i 1))

/-- A one-hot entry: the bit of the word compare `w = s`, read as a number, is 1 where the word's signed
    reading is `s` and 0 elsewhere (`s` is below 2³¹, so the word `s` reads as itself). -/
theorem onehot_entry (w : BitVec 32) (s : Fin 512) :
    (((IntOp.cmpi .eq w (BitVec.ofNat 32 s.val)).toNat : ℝ) : EReal) = if w.toInt = (s.val : Int) then 1 else 0 := by
  have hs : (BitVec.ofNat 32 s.val).toInt = (s.val : Int) :=
    StableHlo.Predicate.toInt_ofNat_small s.val (by have := s.isLt; omega)
  by_cases h : w = BitVec.ofNat 32 s.val
  · rw [StableHlo.Predicate.cmpi_eq_iff.mpr h, if_pos (h ▸ hs)]
    simp
  · rw [eq_zero_of_ne_one (fun e => h (StableHlo.Predicate.cmpi_eq_iff.mp e)),
      if_neg (fun e => h (BitVec.eq_of_toInt_eq (e.trans hs.symm)))]
    simp

/-- A row times a one-hot column is the segment sum. -/
theorem sum_mul_onehot (idx : (⟨1, ![2048]⟩ : Shape).Idx → BitVec 32) (L : Fin 2048 → EReal) (s : Fin 512) :
    ∑ t : Fin 2048, L t * (((IntOp.cmpi .eq (idx (ix1 t)) (BitVec.ofNat 32 s.val)).toNat : ℝ) : EReal) = segSum idx L s := by
  unfold segSum
  refine Finset.sum_congr rfl fun t _ => ?_
  rw [onehot_entry]
  split
  · exact mul_one _
  · exact mul_zero _

end Cert.Spec

end
-- ==== Proof.FiniteInputs.lean ====
/-
  What the precondition gives: real entries, hence real logits.

  The precondition is the conjunction of four `jnp.all (|·| < +∞)`, one per float argument.  Over the
  extended reals |v| < +∞ excludes exactly v = ±∞, so each entry of the input, of W and of b is (the
  image of) a real number; the activations' finiteness is not needed.  A logit is a finite sum of
  products of such entries plus one more, so it is a real too: the coercion of the reals commutes
  with +, · and finite sums.
-/
import proofs.«422131_j38835094291104_2_alg».proof.Pre_finite_inputs
import proofs.«422131_j38835094291104_2_alg».proof.Proof.Gen.Pre_finite_inputs
import proofs.«422131_j38835094291104_2_alg».proof.Proof.Spec
import Idealize.ShloMosaic.Lib.ReduceAll
import Idealize.ShloMosaic.PureOps.Ideal.Laws

noncomputable section

namespace Cert.FiniteInputs

open Idealize.ShloMosaic Idealize.ShloMosaic.ValueIdx Cert.Pre_finite_inputs Cert.Spec

/-- An extended real whose absolute value is below the +∞ word is a real. -/
theorem real_of_abs_lt_inf (v : EReal)
    (h : Ideal.cmp .olt (max v (-v)) (Ideal.ofBits .f32 0x7F800000#32) = 1#1) : ∃ r : ℝ, v = (r : EReal) := by
  have hinf : Ideal.ofBits .f32 0x7F800000#32 = ⊤ := by simp [Ideal.ofBits, Ideal.ieee]
  rw [hinf] at h
  induction v using EReal.rec with
  | bot => exfalso; simp [Ideal.cmp] at h
  | coe r => exact ⟨r, rfl⟩
  | top => exfalso; simp [Ideal.cmp] at h

/-- Under the precondition the input, W and b hold reals. -/
theorem reals_of_pre (x : FVec Ideal S8192x128 .f32) (a : FVec Ideal S8192x512 .f32) (W : FVec Ideal S128x2048 .f32)
    (b : FVec Ideal S2048 .f32) (fi ti : IVec S2048 32)
    (h : fn (F := Ideal) x a W b fi ti = fun _ => 1#1) :
    (∀ i, ∃ r : ℝ, x i = (r : EReal)) ∧ (∀ i, ∃ r : ℝ, W i = (r : EReal)) ∧ (∀ i, ∃ r : ℝ, b i = (r : EReal)) := by
  haveI : Subsingleton S_.Idx := ⟨fun p q => funext fun d => d.elim0⟩
  have h0 := congrFun h ix0
  dsimp only [fn, fn_part1] at h0
  obtain ⟨h123, h4⟩ := IntOp.andi_eq_one.1 h0
  obtain ⟨h12, h3⟩ := IntOp.andi_eq_one.1 h123
  obtain ⟨h1, -⟩ := IntOp.andi_eq_one.1 h12
  exact ⟨fun i => real_of_abs_lt_inf _ (Host.reduce_andi_all _ _ _ _ _ h1 i),
    fun i => real_of_abs_lt_inf _ (Host.reduce_andi_all _ _ _ _ _ h3 i),
    fun i => real_of_abs_lt_inf _ (Host.reduce_andi_all _ _ _ _ _ h4 i)⟩

/-- The coercion of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- With real entries every logit is a real. -/
theorem logit_real {x : (⟨2, ![8192, 128]⟩ : Shape).Idx → EReal} {W : (⟨2, ![128, 2048]⟩ : Shape).Idx → EReal}
    {b : (⟨1, ![2048]⟩ : Shape).Idx → EReal}
    (hx : ∀ i, ∃ r : ℝ, x i = (r : EReal)) (hW : ∀ i, ∃ r : ℝ, W i = (r : EReal)) (hb : ∀ i, ∃ r : ℝ, b i = (r : EReal))
    (r : Fin 8192) (t : Fin 2048) : ∃ z : ℝ, logit x W b r t = (z : EReal) := by
  choose x' hx' using hx
  choose W' hW' using hW
  choose b' hb' using hb
  refine ⟨(∑ k : Fin 128, x' (ix2 r k) * W' (ix2 k t)) + b' (ix1 t), ?_⟩
  unfold logit
  rw [EReal.coe_add, coe_sum, hb']
  congr 1
  exact Finset.sum_congr rfl fun k _ => by rw [hx', hW', EReal.coe_mul]

end Cert.FiniteInputs

end
-- ==== Proof.LibSegmentSum.lean ====
/-
  A segment sum two ways.

  The reference accumulates, for each state s, the rows t of an update array whose index word
  idx t — read as a SIGNED integer — equals s; an index outside [0, S) lands nowhere and its row is
  dropped.  This file reads that accumulating scatter at an index (state s, column b) as

      x (s, b) + ∑ t, (if idx t = s then upd (t, b) else 0)

  by computing the scatter's result index on each axis: on the scattered axis the start is the index
  word and the window coordinate is 0; on the window axis the start is 0 and the window coordinate is
  the update's column.
-/
import Idealize.ShloMosaic.PureOps.Ideal
import Idealize.ShloMosaic.Lib.ValueIdx

noncomputable section

namespace Cert.SegmentSum

open Idealize.ShloMosaic Idealize.ShloMosaic.ValueIdx

variable {S T B : Nat}

/-- The dimension numbers of a row scatter: updates [T, B] into an operand [S, B] at the T index
    vectors of length one held in [T, 1]; update axis 1 is the window, operand axis 0 is scattered. -/
abbrev rowDims (S T B : Nat) (wf : ScatterDims.WF ⟨2, ![S, B]⟩ ⟨2, ![T, 1]⟩ ⟨2, ![T, B]⟩ [1] [0] [0] 1) :
    ScatterDims ⟨2, ![S, B]⟩ ⟨2, ![T, 1]⟩ ⟨2, ![T, B]⟩ where
  updateWindowDims := [1]
  insertedWindowDims := [0]
  scatterDimsToOperandDims := [0]
  indexVectorDim := 1
  wf := wf

variable (wf : ScatterDims.WF ⟨2, ![S, B]⟩ ⟨2, ![T, 1]⟩ ⟨2, ![T, B]⟩ [1] [0] [0] 1)

/-- On the scattered axis the window starts at update row t's index word, read signed. -/
theorem start_zero {w : Nat} (t : Fin T) (b : Fin B) (idx : IVec ⟨2, ![T, 1]⟩ w) :
    (rowDims S T B wf).start (ix2 t b) idx 0 = (idx (ix2 t (0 : Fin 1))).toInt := by
  unfold ScatterDims.start
  rw [dif_pos (show (0 : Fin 2) ∈ (rowDims S T B wf).scatterDimsToOperandDims from List.mem_singleton.mpr rfl)]
  have hsi : (rowDims S T B wf).siIdx (ix2 t b) ⟨List.idxOf (0 : Fin 2) (rowDims S T B wf).scatterDimsToOperandDims,
      List.idxOf_lt_length_iff.2 (List.mem_singleton.mpr rfl)⟩ = ix2 t (0 : Fin 1) := by
    funext a; refine Fin.ext ?_
    match a with
    | ⟨0, _⟩ => rfl
    | ⟨1, _⟩ => rfl
  rw [hsi]

/-- On the window axis the start is zero. -/
theorem start_one {w : Nat} (t : Fin T) (b : Fin B) (idx : IVec ⟨2, ![T, 1]⟩ w) :
    (rowDims S T B wf).start (ix2 t b) idx 1 = 0 := by
  unfold ScatterDims.start
  rw [dif_neg (show ¬(1 : Fin 2) ∈ (rowDims S T B wf).scatterDimsToOperandDims from
    (show ¬(1 : Fin 2) ∈ ([0] : List (Fin 2)) by decide))]

/-- The scattered axis is inserted: no window coordinate there. -/
theorem window_zero (t : Fin T) (b : Fin B) : (rowDims S T B wf).window (ix2 t b) 0 = 0 := by
  unfold ScatterDims.window
  rw [dif_neg (show ¬(0 : Fin 2) ∈ (rowDims S T B wf).sKept from
    (show ¬(0 : Fin 2) ∈ (List.finRange 2).filter (· ∉ ([0] : List (Fin 2))) by decide))]

/-- On the window axis the coordinate is the update's column. -/
theorem window_one (t : Fin T) (b : Fin B) : (rowDims S T B wf).window (ix2 t b) 1 = b.val := by
  unfold ScatterDims.window
  rw [dif_pos (show (1 : Fin 2) ∈ (rowDims S T B wf).sKept from
    (show (1 : Fin 2) ∈ (List.finRange 2).filter (· ∉ ([0] : List (Fin 2))) by decide))]
  rfl

/-- Update (t, b') lands on operand index (s, b) exactly when its index word is s and b' = b. -/
theorem resultIdx?_eq_some_iff {w : Nat} (t : Fin T) (b' : Fin B) (idx : IVec ⟨2, ![T, 1]⟩ w) (s : Fin S) (b : Fin B) :
    (rowDims S T B wf).resultIdx? (ix2 t b') idx = some (ix2 s b)
      ↔ (idx (ix2 t (0 : Fin 1))).toInt = (s.val : Int) ∧ b' = b := by
  have h0 : (rowDims S T B wf).start (ix2 t b') idx 0 + ((rowDims S T B wf).window (ix2 t b') 0 : Int)
      = (idx (ix2 t (0 : Fin 1))).toInt := by rw [start_zero, window_zero]; simp
  have h1 : (rowDims S T B wf).start (ix2 t b') idx 1 + ((rowDims S T B wf).window (ix2 t b') 1 : Int) = (b'.val : Int) := by
    rw [start_one, window_one]; simp
  unfold ScatterDims.resultIdx?
  split
  · rename_i h
    constructor
    · intro e
      have e' := Option.some.inj e
      have e0 : ((rowDims S T B wf).start (ix2 t b') idx 0 + ((rowDims S T B wf).window (ix2 t b') 0 : Int)).toNat = s.val :=
        congrArg (fun f : (⟨2, ![S, B]⟩ : Shape).Idx => (f 0).val) e'
      have e1 : ((rowDims S T B wf).start (ix2 t b') idx 1 + ((rowDims S T B wf).window (ix2 t b') 1 : Int)).toNat = b.val :=
        congrArg (fun f : (⟨2, ![S, B]⟩ : Shape).Idx => (f 1).val) e'
      have hh := (h 0).1
      rw [h0] at e0 hh
      rw [h1] at e1
      exact ⟨by omega, Fin.ext (by omega)⟩
    · rintro ⟨hs, rfl⟩
      congr 1
      funext a; refine Fin.ext ?_
      match a with
      | ⟨0, _⟩ =>
        show ((rowDims S T B wf).start (ix2 t b') idx 0 + ((rowDims S T B wf).window (ix2 t b') 0 : Int)).toNat = s.val
        rw [h0, hs]; simp
      | ⟨1, _⟩ =>
        show ((rowDims S T B wf).start (ix2 t b') idx 1 + ((rowDims S T B wf).window (ix2 t b') 1 : Int)).toNat = b'.val
        rw [h1]; simp
  · rename_i h
    constructor
    · intro e; cases e
    · rintro ⟨hs, rfl⟩
      refine absurd (fun a => ?_) h
      match a with
      | ⟨0, _⟩ =>
        show 0 ≤ (rowDims S T B wf).start (ix2 t b') idx 0 + ((rowDims S T B wf).window (ix2 t b') 0 : Int)
          ∧ (rowDims S T B wf).start (ix2 t b') idx 0 + ((rowDims S T B wf).window (ix2 t b') 0 : Int) < (S : Int)
        rw [h0, hs]; have := s.isLt; omega
      | ⟨1, _⟩ =>
        show 0 ≤ (rowDims S T B wf).start (ix2 t b') idx 1 + ((rowDims S T B wf).window (ix2 t b') 1 : Int)
          ∧ (rowDims S T B wf).start (ix2 t b') idx 1 + ((rowDims S T B wf).window (ix2 t b') 1 : Int) < (B : Int)
        rw [h1]; have := b'.isLt; omega

/-- THE ACCUMULATING ROW SCATTER READ AT (s, b): the operand's entry plus the sum over update rows t of
    the entry (t, b) where row t's index word, read signed, is s — and of nothing where it is not. -/
theorem scatterAdd_apply {w : Nat} (x : (⟨2, ![S, B]⟩ : Shape).Idx → EReal) (idx : IVec ⟨2, ![T, 1]⟩ w)
    (upd : (⟨2, ![T, B]⟩ : Shape).Idx → EReal) (s : Fin S) (b : Fin B) :
    Ideal.hostScatterAdd (rowDims S T B wf) x idx upd (ix2 s b)
      = x (ix2 s b) + ∑ t : Fin T, if (idx (ix2 t (0 : Fin 1))).toInt = (s.val : Int) then upd (ix2 t b) else 0 := by
  unfold Ideal.hostScatterAdd
  congr 1
  rw [Finset.sum_filter, sum_idx2]
  refine Finset.sum_congr rfl fun t _ => ?_
  simp only [resultIdx?_eq_some_iff]
  by_cases h : (idx (ix2 t (0 : Fin 1))).toInt = (s.val : Int)
  · rw [if_pos h]
    simp only [h, true_and]
    rw [Finset.sum_eq_single b (fun b' _ hne => if_neg hne) (fun hb => absurd (Finset.mem_univ b) hb), if_pos rfl]
  · rw [if_neg h]
    exact Finset.sum_eq_zero fun b' _ => if_neg (fun hc => h hc.1)

end Cert.SegmentSum

end
-- ==== Proof.RefValue.lean ====
/-
  The reference computes the result function.

  Read one stage at a time: the logits are the host product plus the broadcast bias; the logistic
  function is jax's expansion 1 / (1 + e⁻ᶻ), whose literal 1.0 is the number one; its log complement
  goes, transposed to [2048, 8192], through an accumulating row scatter into 512 zero rows — which at
  (s, r) is the sum of the rows t whose index word reads s —, and is transposed back.  The update of
  the activations that follows is the result function's, operation for operation.
-/
import proofs.«422131_j38835094291104_2_alg».proof.Proof.Gen.ReferenceIdeal.Read
import proofs.«422131_j38835094291104_2_alg».proof.Proof.Spec
import proofs.«422131_j38835094291104_2_alg».proof.Proof.LibSegmentSum
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.Spec Cert.LogComplement Cert.SegmentSum

/-- The log-complement stage at (r, t). -/
theorem logComplement_apply (x0 : (⟨S8192x128, .f32⟩ : BufTy).Contents (Elt Ideal)) (x2 : (⟨S128x2048, .f32⟩ : BufTy).Contents (Elt Ideal))
    (x3 : (⟨S2048, .f32⟩ : BufTy).Contents (Elt Ideal)) (r : Fin 8192) (t : Fin 2048) :
    val_main_v11 (F := Ideal) x0 x2 x3 (ix2 r t) = logOneMinusSigmoid (logit x0 x2 x3 r t) := by
  have el : ∀ k, lidx_main_v0 (ix2 r t) k = ix2 r k := fun k => funext fun a => Fin.ext (by
    match a with
    | ⟨0, _⟩ => rfl
    | ⟨1, _⟩ => rfl)
  have er : ∀ k, ridx_main_v0 (ix2 r t) k = ix2 k t := fun k => funext fun a => Fin.ext (by
    match a with
    | ⟨0, _⟩ => rfl
    | ⟨1, _⟩ => rfl)
  have eb : idx_main_v1 (idx_main_v2 (ix2 r t)) = ix1 t := funext fun a => Fin.ext (by
    match a with
    | ⟨0, _⟩ => rfl)
  rw [val_main_v11_apply, val_main_v10_apply, val_main_v9_apply, val_main_v8_apply, val_main_cst_0_apply, val_main_v7_apply,
    val_main_v6_apply, val_main_cst_apply, val_main_v5_apply, val_main_v4_apply, val_main_v3_apply, val_main_v0_apply,
    val_main_v2_apply, val_main_v1_apply]
  simp only [el, er, eb]
  show Ideal.log1p (-(Ideal.div (Ideal.ofBits .f32 0x3F800000#32) (Ideal.ofBits .f32 0x3F800000#32
    + Ideal.exp (-((∑ k : Fin 128, x0 (ix2 r k) * x2 (ix2 k t)) + x3 (ix1 t)))))) = _
  rw [Ideal.ofBits_one_f32]
  rfl

/-- A segment-sum stage, transposed back, at (r, s): the scatter's zero operand plus the rows whose index word reads s. -/
theorem segment_apply (x0 : (⟨S8192x128, .f32⟩ : BufTy).Contents (Elt Ideal)) (x2 : (⟨S128x2048, .f32⟩ : BufTy).Contents (Elt Ideal))
    (x3 : (⟨S2048, .f32⟩ : BufTy).Contents (Elt Ideal)) (x4 : (⟨S2048, .i32⟩ : BufTy).Contents (Elt Ideal)) (r : Fin 8192) (s : Fin 512) :
    val_main_v16 (F := Ideal) x0 x2 x3 x4 (ix2 r s)
      = segSum x4 (fun t => logOneMinusSigmoid (logit x0 x2 x3 r t)) s := by
  have e16 : idx_main_v16 (ix2 r s) = ix2 s r := funext fun a => Fin.ext (by
    match a with
    | ⟨0, _⟩ => rfl
    | ⟨1, _⟩ => rfl)
  rw [val_main_v16_apply, e16]
  unfold val_main_v15
  show Ideal.hostScatterAdd (rowDims 512 2048 8192 scatter_S512x8192_S2048x1_S2048x8192_1_0_0_1_wf)
    (val_main_v13 (F := Ideal)) (val_main_v14 (F := Ideal) x4) (val_main_v12 (F := Ideal) x0 x2 x3) (ix2 s r) = _
  rw [scatterAdd_apply, val_main_v13_apply, val_main_cst_1_apply]
  show Ideal.ofBits .f32 0x00000000#32 + _ = _
  rw [Ideal.ofBits_zero_f32, zero_add]
  unfold segSum
  refine Finset.sum_congr rfl fun t _ => ?_
  have e14 : idx_main_v14 (ix2 t (0 : Fin 1)) = ix1 t := funext fun a => Fin.ext (by
    match a with
    | ⟨0, _⟩ => rfl)
  have e12 : idx_main_v12 (ix2 t r) = ix2 r t := funext fun a => Fin.ext (by
    match a with
    | ⟨0, _⟩ => rfl
    | ⟨1, _⟩ => rfl)
  rw [val_main_v14_apply, e14, val_main_v12_apply, e12, logComplement_apply]

/-- The same stage for the to-states' index vector. -/
theorem segment_to_apply (x0 : (⟨S8192x128, .f32⟩ : BufTy).Contents (Elt Ideal)) (x2 : (⟨S128x2048, .f32⟩ : BufTy).Contents (Elt Ideal))
    (x3 : (⟨S2048, .f32⟩ : BufTy).Contents (Elt Ideal)) (x5 : (⟨S2048, .i32⟩ : BufTy).Contents (Elt Ideal)) (r : Fin 8192) (s : Fin 512) :
    val_main_v24 (F := Ideal) x0 x2 x3 x5 (ix2 r s)
      = segSum x5 (fun t => logOneMinusSigmoid (logit x0 x2 x3 r t)) s := by
  have e24 : idx_main_v24 (ix2 r s) = ix2 s r := funext fun a => Fin.ext (by
    match a with
    | ⟨0, _⟩ => rfl
    | ⟨1, _⟩ => rfl)
  rw [val_main_v24_apply, e24]
  unfold val_main_v23
  show Ideal.hostScatterAdd (rowDims 512 2048 8192 scatter_S512x8192_S2048x1_S2048x8192_1_0_0_1_wf)
    (val_main_v21 (F := Ideal)) (val_main_v22 (F := Ideal) x5) (val_main_v20 (F := Ideal) x0 x2 x3) (ix2 s r) = _
  rw [scatterAdd_apply, val_main_v21_apply, val_main_cst_3_apply]
  show Ideal.ofBits .f32 0x00000000#32 + _ = _
  rw [Ideal.ofBits_zero_f32, zero_add]
  unfold segSum
  refine Finset.sum_congr rfl fun t _ => ?_
  have e22 : idx_main_v22 (ix2 t (0 : Fin 1)) = ix1 t := funext fun a => Fin.ext (by
    match a with
    | ⟨0, _⟩ => rfl)
  have e20 : idx_main_v20 (ix2 t r) = ix2 r t := funext fun a => Fin.ext (by
    match a with
    | ⟨0, _⟩ => rfl
    | ⟨1, _⟩ => rfl)
  rw [val_main_v22_apply, e22, val_main_v20_apply, e20, logComplement_apply]

/-- THE REFERENCE'S RESULT is the result function of its arguments. -/
theorem reference_eq (x0 : (⟨S8192x128, .f32⟩ : BufTy).Contents (Elt Ideal)) (x1 : (⟨S8192x512, .f32⟩ : BufTy).Contents (Elt Ideal))
    (x2 : (⟨S128x2048, .f32⟩ : BufTy).Contents (Elt Ideal)) (x3 : (⟨S2048, .f32⟩ : BufTy).Contents (Elt Ideal))
    (x4 x5 : (⟨S2048, .i32⟩ : BufTy).Contents (Elt Ideal)) :
    val_main_v33 (F := Ideal) x0 x1 x2 x3 x4 x5 = result x0 x1 x2 x3 x4 x5 := by
  funext i
  obtain ⟨r, s, rfl⟩ : ∃ (r : Fin 8192) (s : Fin 512), i = ix2 r s := ⟨i 0, i 1, eq_ix2 i⟩
  rw [val_main_v33_apply, val_main_v30_apply, val_main_v28_apply, val_main_v29_apply, val_main_v27_apply, val_main_v25_apply,
    val_main_v32_apply, val_main_v19_apply, val_main_v17_apply, segment_apply, segment_to_apply,
    val_main_v26_apply, val_main_cst_4_apply, val_main_v31_apply, val_main_cst_5_apply, val_main_v18_apply, val_main_cst_2_apply]
  rfl

end Cert.ReferenceIdeal.RefValue

end
-- ==== Proof.KernelPayload.lean ====
/-
  What one grid point's body computes, entry by entry.

  From its five loaded blocks — x0 (512 rows of the input), x1 (the same rows of the activations),
  x2 (all of W), x3 (b as one row), x4 (the 2048 × 1024 one-hot table, from-states in columns 0..511
  and to-states in columns 512..1023) — the body stores, at (p, q),

      update (x1 (p, q)) (sums (p, q)) (sums (p, 512 + q)),
      sums (p, c) = ∑ t, negSoftplus (z p t) · x4 (t, c),      z p t = ∑ k, x0 (p, k) · x2 (k, t) + x3 (0, t).

  Both matrix products accumulate into a zero splat, so each is the plain sum over the contracted
  coordinate; the two column halves of `sums` are unit-stride slices; every other operation is
  pointwise.  The `select` on `z − 0 ≠ z − 0` never takes its first branch over the extended reals.
-/
import proofs.«422131_j38835094291104_2_alg».proof.Proof.Gen.KernelIdeal.Skeleton
import proofs.«422131_j38835094291104_2_alg».proof.Proof.Spec
import Idealize.ShloMosaic.Lib.ValueLayout
import Idealize.ShloMosaic.Lib.KernelVsHost
import Idealize.ShloMosaic.Lib.StackMember
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.Spec Cert.LogComplement

/-- A block row's logit for transition `t`, from the loaded blocks. -/
def blockLogit (x0 : Vec Ideal S512x128 .bf16) (x2 : Vec Ideal S128x2048 .bf16) (x3 : Vec Ideal S1x2048 .f32)
    (p : Fin 512) (t : Fin 2048) : EReal :=
  (∑ k : Fin 128, x0 (ix2 p k) * x2 (ix2 k t)) + x3 (ix2 (0 : Fin 1) t)

/-- The first product plus the bias row, at (p, t). -/
theorem logits_apply (x0 : Vec Ideal S512x128 .bf16) (x2 : Vec Ideal S128x2048 .bf16) (x3 : Vec Ideal S1x2048 .f32)
    (p : Fin 512) (t : Fin 2048) :
    addf (F := Ideal) (φ := .f32) (matmul (φ₁ := .bf16) (φ₂ := .bf16) dot_S512x128_S128x2048_S512x2048_1_0_0_1_n_n none
        (shapeCast S512x128 x0 shapeCasts_S512x128_S512x128 : FVec Ideal S512x128 .bf16)
        (shapeCast S128x2048 x2 shapeCasts_S128x2048_S128x2048 : FVec Ideal S128x2048 .bf16) (constant S512x2048 .f32 0x00000000#32))
      (broadcastTo S512x2048 (shapeCast S1x2048 x3 shapeCasts_S1x2048_S1x2048 : FVec Ideal S1x2048 .f32) broadcasts_S1x2048_S512x2048) (ix2 p t)
      = blockLogit x0 x2 x3 p t := by
  rw [addf_apply, shapeCast_self, shapeCast_self, shapeCast_self,
    show dot_S512x128_S128x2048_S512x2048_1_0_0_1_n_n = DotDims.plain 512 128 2048 from rfl,
    matmul_zero_eq_dotGeneral, StackMember.dotGeneral_plain_apply, broadcastTo_1b_ab_apply]
  rfl

/-- The stable minus-softplus of a vector of logits, at an index: the guard `v ≠ v` is never set. -/
theorem negSoftplus_apply (z : FVec Ideal S512x2048 .f32) (i : S512x2048.Idx) :
    subf (broadcast S512x2048 (FloatOps.ofBits .f32 0x00000000#32))
      (select
        (cmpf .one (subf z (broadcast S512x2048 (FloatOps.ofBits .f32 0x00000000#32)))
          (subf z (broadcast S512x2048 (FloatOps.ofBits .f32 0x00000000#32))))
        (addf z (broadcast S512x2048 (FloatOps.ofBits .f32 0x00000000#32)))
        (addf (maximumf z (broadcast S512x2048 (FloatOps.ofBits .f32 0x00000000#32)))
          (log1p (exp (subf (broadcast S512x2048 (FloatOps.ofBits .f32 0x00000000#32))
            (absf (subf z (broadcast S512x2048 (FloatOps.ofBits .f32 0x00000000#32))))))))) i
      = negSoftplus (z i) := by
  show Ideal.ofBits .f32 0x00000000#32
      - Scalar.select (Ideal.cmp .one (z i - Ideal.ofBits .f32 0x00000000#32) (z i - Ideal.ofBits .f32 0x00000000#32))
          (z i + Ideal.ofBits .f32 0x00000000#32)
          (max (z i) (Ideal.ofBits .f32 0x00000000#32)
            + Ideal.log1p (Ideal.exp (Ideal.ofBits .f32 0x00000000#32
              - max (z i - Ideal.ofBits .f32 0x00000000#32) (-(z i - Ideal.ofBits .f32 0x00000000#32))))) = _
  rw [Ideal.ofBits_zero_f32, show Ideal.cmp .one (z i - 0) (z i - 0) = 0#1 by simp [Ideal.cmp], select_zero]
  rfl

/-- The second product — the log complements against the one-hot table — at (p, c). -/
theorem sums_apply (x0 : Vec Ideal S512x128 .bf16) (x2 : Vec Ideal S128x2048 .bf16) (x3 : Vec Ideal S1x2048 .f32)
    (x4 : Vec Ideal S2048x1024 .bf16) (p : Fin 512) (c : Fin 1024) :
    k0_pay2 x0 x2 x3 x4 (ix2 p c) = ∑ t : Fin 2048, negSoftplus (blockLogit x0 x2 x3 p t) * x4 (ix2 t c) := by
  unfold k0_pay2
  rw [show dot_S512x2048_S2048x1024_S512x1024_1_0_0_1_n_n = DotDims.plain 512 2048 1024 from rfl,
    matmul_zero_eq_dotGeneral, StackMember.dotGeneral_plain_apply]
  refine Finset.sum_congr rfl fun t _ => ?_
  rw [shapeCast_self x4, truncf_apply, negSoftplus_apply, logits_apply]

/-- THE STORED ENTRY at (p, q): the update of the activation by the two column halves of the second product. -/
theorem payload_apply (x0 : Vec Ideal S512x128 .bf16) (x1 : Vec Ideal S512x512 .f32) (x2 : Vec Ideal S128x2048 .bf16)
    (x3 : Vec Ideal S1x2048 .f32) (x4 : Vec Ideal S2048x1024 .bf16) (p q : Fin 512) :
    k0_pay1 (k0_pay3 x0 x2 x3 x4) (k0_pay4 x0 x2 x3 x4 x1) (FloatOps.ofBits .f32 0x3F800000#32) (ix2 p q)
      = update (x1 (ix2 p q))
          (∑ t : Fin 2048, negSoftplus (blockLogit x0 x2 x3 p t) * x4 (ix2 t (⟨q.val, by omega⟩ : Fin 1024)))
          (∑ t : Fin 2048, negSoftplus (blockLogit x0 x2 x3 p t) * x4 (ix2 t (⟨512 + q.val, by omega⟩ : Fin 1024))) := by
  have e3 : k0_pay3 x0 x2 x3 x4 (ix2 p q)
      = one - Ideal.exp (k0_pay2 x0 x2 x3 x4 (ix2 p (⟨q.val, by omega⟩ : Fin 1024))) := by
    unfold k0_pay3
    show Ideal.ofBits .f32 0x3F800000#32
        - Ideal.exp (extractStridedSlice S512x512 ![0, 0] (k0_pay2 x0 x2 x3 x4) slices_S512x1024_o0_0_S512x512 (ix2 p q)) = _
    rw [slice2_axis1_apply 0 _ _ p q (⟨q.val, by omega⟩ : Fin 1024) (by simp)]
  have e4 : k0_pay4 x0 x2 x3 x4 x1 (ix2 p q)
      = (x1 (ix2 p q) + (one - Ideal.exp (k0_pay2 x0 x2 x3 x4 (ix2 p (⟨512 + q.val, by omega⟩ : Fin 1024)))))
        - x1 (ix2 p q) * (one - Ideal.exp (k0_pay2 x0 x2 x3 x4 (ix2 p (⟨512 + q.val, by omega⟩ : Fin 1024)))) := by
    unfold k0_pay4
    show (x1 (ix2 p q) + (Ideal.ofBits .f32 0x3F800000#32
          - Ideal.exp (extractStridedSlice S512x512 ![0, 512] (k0_pay2 x0 x2 x3 x4) slices_S512x1024_o0_512_S512x512 (ix2 p q))))
        - x1 (ix2 p q) * (Ideal.ofBits .f32 0x3F800000#32
          - Ideal.exp (extractStridedSlice S512x512 ![0, 512] (k0_pay2 x0 x2 x3 x4) slices_S512x1024_o0_512_S512x512 (ix2 p q))) = _
    rw [slice2_axis1_apply 512 _ _ p q (⟨512 + q.val, by omega⟩ : Fin 1024) rfl]
  unfold k0_pay1 update
  show k0_pay4 x0 x2 x3 x4 x1 (ix2 p q) * (Ideal.ofBits .f32 0x3F800000#32 - k0_pay3 x0 x2 x3 x4 (ix2 p q)) = _
  rw [e3, e4, sums_apply, sums_apply]

end Cert.KernelIdeal.Payload

end
-- ==== Proof.KernelArray.lean ====
/-
  The kernel's output array is the result function.

  The region finds: the input and W unchanged by the format change (the identity here); b as one row;
  and the [2048, 1024] table whose left half is the one-hot matrix of from_idx and whose right half
  that of to_idx — entry (t, s) the bit of the word compare idx t = s read as a number.

  Grid point n loads rows [512 n, 512 n + 512) of the input and of the activations and all of W, b
  and the table, and writes back rows [512 n, 512 n + 512) of the output.  Its stored entry (p, q) is
  the update of the activation by two products with the table's halves (the payload lemma); each is
  the segment sum of the minus-softplus of the row's logits, and where the logits are real that is the
  log complement the result function sums.  The sixteen row blocks tile the output array, so after
  the run the array is the result function everywhere.
-/
import proofs.«422131_j38835094291104_2_alg».proof.Proof.Gen.KernelIdeal.Value
import proofs.«422131_j38835094291104_2_alg».proof.Proof.Spec
import proofs.«422131_j38835094291104_2_alg».proof.Proof.KernelPayload
import Idealize.ShloMosaic.Lib.ValueLayout
import Idealize.ShloMosaic.Lib.IdealHost
import Idealize.ShloMosaic.Lib.StableHlo.Run
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Spec Cert.LogComplement Cert.KernelIdeal.Payload

variable (m : (ℓ : Loc nD τ sig) → Buf (Elt Ideal) ℓ) (ρ : Dev nD → PrngReg)

/-! ## The arrays the region finds -/

/-- The one-hot matrix of an index vector as @main builds it: the index down the rows against the
    state number along the columns, compared as words, the bit converted to a float. -/
def oneHot {F : FTy → Type} [FloatOps F] (idx : IVec S2048 32) : FVec F S2048x512 .bf16 :=
  uitofp .bf16 (cmpi .eq
    (broadcastInDim S2048x512 ![0, 1] bcast_S2048x1_S2048x512_0_1 (broadcastInDim S2048x1 ![0] bcast_S2048_S2048x1_0 idx))
    (broadcastInDim S2048x512 ![0, 1] bcast_S1x512_S2048x512_0_1 (iotaInDim S1x512 32 1)))

theorem V_input (c : Dev nD) : (V m c main_v0 : S8192x128.Idx → EReal) = m ((c : Thread nD τ).loc main_arg0) := by
  dsimp only [V]
  simp only [hostOps0, hostOps0_1, hostOps0_2, hostOps0_3, List.flatten_cons, List.flatten_nil, List.append_nil,
    List.cons_append, List.nil_append]
  after_results
  rfl

theorem V_weights (c : Dev nD) : (V m c main_v1 : S128x2048.Idx → EReal) = m ((c : Thread nD τ).loc main_arg2) := by
  dsimp only [V]
  simp only [hostOps0, hostOps0_1, hostOps0_2, hostOps0_3, List.flatten_cons, List.flatten_nil, List.append_nil,
    List.cons_append, List.nil_append]
  after_results
  rfl

theorem V_bias (c : Dev nD) : (V m c main_v2 : S1x2048.Idx → EReal)
    = shapeCast S1x2048 (m ((c : Thread nD τ).loc main_arg3)) shapeCasts_S2048_S1x2048 := by
  dsimp only [V]
  simp only [hostOps0, hostOps0_1, hostOps0_2, hostOps0_3, List.flatten_cons, List.flatten_nil, List.append_nil,
    List.cons_append, List.nil_append]
  after_results
  rfl

theorem V_table (c : Dev nD) : (V m c main_v5 : S2048x1024.Idx → EReal)
    = concatenate S2048x1024 1 [⟨S2048x512, oneHot (F := Ideal) (m ((c : Thread nD τ).loc main_arg4))⟩,
        ⟨S2048x512, oneHot (F := Ideal) (m ((c : Thread nD τ).loc main_arg5))⟩] concatenates_S2048x512_S2048x512_S2048x1024_d1 := by
  dsimp only [V]
  simp only [hostOps0, hostOps0_1, hostOps0_2, hostOps0_3, List.flatten_cons, List.flatten_nil, List.append_nil,
    List.cons_append, List.nil_append]
  after_results
  rfl

/-- A one-hot entry: the compare of row t's index word with the word s, as a number. -/
theorem oneHot_apply (idx : IVec S2048 32) (t : Fin 2048) (s : Fin 512) :
    oneHot (F := Ideal) idx (ix2 t s) = (((IntOp.cmpi .eq (idx (ix1 t)) (BitVec.ofNat 32 s.val)).toNat : ℝ) : EReal) := by
  show (((IntOp.cmpi .eq
      (broadcastInDim S2048x512 ![0, 1] bcast_S2048x1_S2048x512_0_1 (broadcastInDim S2048x1 ![0] bcast_S2048_S2048x1_0 idx) (ix2 t s))
      (broadcastInDim S2048x512 ![0, 1] bcast_S1x512_S2048x512_0_1 (iotaInDim S1x512 32 1) (ix2 t s))).toNat : ℝ) : EReal) = _
  rw [broadcastInDim_apply _ bcast_S2048x1_S2048x512_0_1 _ (ix2 t s) (ix2 t (0 : Fin 1)) (fun a => match a with
      | ⟨0, _⟩ => by show t.val = if (2048 : Nat) = 1 then 0 else t.val; rw [if_neg (by decide)]
      | ⟨1, _⟩ => by show 0 = if (1 : Nat) = 1 then 0 else s.val; rw [if_pos rfl]),
    broadcastInDim_apply _ bcast_S2048_S2048x1_0 idx (ix2 t (0 : Fin 1)) (ix1 t) (fun a => match a with
      | ⟨0, _⟩ => by show t.val = if (2048 : Nat) = 1 then 0 else t.val; rw [if_neg (by decide)]),
    broadcastInDim_apply _ bcast_S1x512_S2048x512_0_1 _ (ix2 t s) (ix2 (0 : Fin 1) s) (fun a => match a with
      | ⟨0, _⟩ => by show 0 = if (1 : Nat) = 1 then 0 else t.val; rw [if_pos rfl]
      | ⟨1, _⟩ => by show s.val = if (512 : Nat) = 1 then 0 else s.val; rw [if_neg (by decide)])]
  rfl

/-- The table's left half is the from-states' one-hot matrix. -/
theorem table_from (c : Dev nD) (t : Fin 2048) (s : Fin 512) :
    (V m c main_v5 : S2048x1024.Idx → EReal) (ix2 t (⟨s.val, by omega⟩ : Fin 1024))
      = (((IntOp.cmpi .eq (m ((c : Thread nD τ).loc main_arg4) (ix1 t)) (BitVec.ofNat 32 s.val)).toNat : ℝ) : EReal) := by
  rw [V_table, concatenate_pair_apply_left (t := S2048x1024) (s₁ := S2048x512) (s₂ := S2048x512) (1 : Fin 2) _ _ concatenates_S2048x512_S2048x512_S2048x1024_d1
    (ix2 t (⟨s.val, by omega⟩ : Fin 1024)) rfl (ix2 t s) (fun b => match b with
      | ⟨0, _⟩ => rfl
      | ⟨1, _⟩ => rfl), oneHot_apply]

/-- The table's right half is the to-states' one-hot matrix. -/
theorem table_to (c : Dev nD) (t : Fin 2048) (s : Fin 512) :
    (V m c main_v5 : S2048x1024.Idx → EReal) (ix2 t (⟨512 + s.val, by omega⟩ : Fin 1024))
      = (((IntOp.cmpi .eq (m ((c : Thread nD τ).loc main_arg5) (ix1 t)) (BitVec.ofNat 32 s.val)).toNat : ℝ) : EReal) := by
  rw [V_table, concatenate_pair_apply_right (t := S2048x1024) (s₁ := S2048x512) (s₂ := S2048x512) (1 : Fin 2) _ _ concatenates_S2048x512_S2048x512_S2048x1024_d1
    (ix2 t (⟨512 + s.val, by omega⟩ : Fin 1024)) rfl rfl (ix2 t s) (fun b => match b with
      | ⟨0, _⟩ => fun _ => rfl
      | ⟨1, _⟩ => fun h => absurd rfl h) (by show s.val + 512 = 512 + s.val; omega), oneHot_apply]

/-! ## The blocks at a grid point -/

/-- The printed index maps over the sixteen points: the row-blocked windows (input, activations, output)
    are at block (n, 0), the resident ones (W, b, the table) at block (0, 0). -/
theorem idx_facts : ∀ n : Fin cfg0.N,
    win0_0.index n (0 : Fin 2) = n.val ∧ win0_0.index n (1 : Fin 2) = 0
    ∧ win0_1.index n (0 : Fin 2) = n.val ∧ win0_1.index n (1 : Fin 2) = 0
    ∧ win0_2.index n (0 : Fin 2) = 0 ∧ win0_2.index n (1 : Fin 2) = 0
    ∧ win0_3.index n (0 : Fin 2) = 0 ∧ win0_3.index n (1 : Fin 2) = 0
    ∧ win0_4.index n (0 : Fin 2) = 0 ∧ win0_4.index n (1 : Fin 2) = 0
    ∧ win0_5.index n (0 : Fin 2) = n.val ∧ win0_5.index n (1 : Fin 2) = 0 :=
  (by decide +kernel : ∀ n : Fin grid0.N, _)

/-- The array row that block row `p` of point `n` is. -/
abbrev rowOf (n : Fin cfg0.N) (p : Fin 512) : Fin 8192 :=
  ⟨n.val * 512 + p.val, by have h16 : n.val < 16 := n.isLt; have := p.isLt; omega⟩

/-- The five input blocks at a point, at their literal types. -/
abbrev blkX (c : Dev nD) (n : Fin cfg0.N) : Vec Ideal S512x128 .bf16 := iblk m c 0 n
abbrev blkA (c : Dev nD) (n : Fin cfg0.N) : Vec Ideal S512x512 .f32 := iblk m c 1 n
abbrev blkW (c : Dev nD) (n : Fin cfg0.N) : Vec Ideal S128x2048 .bf16 := iblk m c 2 n
abbrev blkB (c : Dev nD) (n : Fin cfg0.N) : Vec Ideal S1x2048 .f32 := iblk m c 3 n
abbrev blkT (c : Dev nD) (n : Fin cfg0.N) : Vec Ideal S2048x1024 .bf16 := iblk m c 4 n

theorem blkX_apply (c : Dev nD) (n : Fin cfg0.N) (p : Fin 512) (k : Fin 128) :
    blkX m c n (ix2 p k) = m ((c : Thread nD τ).loc main_arg0) (ix2 (rowOf n p) k) := by
  obtain ⟨e0, e1, -⟩ := idx_facts n
  show (V m c main_v0 : S8192x128.Idx → EReal) (((cfg0.win 0).blk n).view.emb (ix2 p k)) = _
  refine (congrFun (V_input m c) _).trans (congrArg _ ?_)
  funext a; apply Fin.ext
  match a with
  | ⟨0, _⟩ => show win0_0.index n (0 : Fin 2) * 512 + 1 * p.val = n.val * 512 + p.val; omega
  | ⟨1, _⟩ => show win0_0.index n (1 : Fin 2) * 128 + 1 * k.val = k.val; omega

theorem blkA_apply (c : Dev nD) (n : Fin cfg0.N) (p q : Fin 512) :
    blkA m c n (ix2 p q) = m ((c : Thread nD τ).loc main_arg1) (ix2 (rowOf n p) q) := by
  obtain ⟨-, -, e0, e1, -⟩ := idx_facts n
  show (V m c main_arg1 : S8192x512.Idx → EReal) (((cfg0.win 1).blk n).view.emb (ix2 p q)) = _
  refine (congrFun (V_main_arg1 m c) _).trans (congrArg _ ?_)
  funext a; apply Fin.ext
  match a with
  | ⟨0, _⟩ => show win0_1.index n (0 : Fin 2) * 512 + 1 * p.val = n.val * 512 + p.val; omega
  | ⟨1, _⟩ => show win0_1.index n (1 : Fin 2) * 512 + 1 * q.val = q.val; omega

theorem blkW_apply (c : Dev nD) (n : Fin cfg0.N) (k : Fin 128) (t : Fin 2048) :
    blkW m c n (ix2 k t) = m ((c : Thread nD τ).loc main_arg2) (ix2 k t) := by
  obtain ⟨-, -, -, -, e0, e1, -⟩ := idx_facts n
  show (V m c main_v1 : S128x2048.Idx → EReal) (((cfg0.win 2).blk n).view.emb (ix2 k t)) = _
  refine (congrFun (V_weights m c) _).trans (congrArg _ ?_)
  funext a; apply Fin.ext
  match a with
  | ⟨0, _⟩ => show win0_2.index n (0 : Fin 2) * 128 + 1 * k.val = k.val; omega
  | ⟨1, _⟩ => show win0_2.index n (1 : Fin 2) * 2048 + 1 * t.val = t.val; omega

theorem blkB_apply (c : Dev nD) (n : Fin cfg0.N) (t : Fin 2048) :
    blkB m c n (ix2 (0 : Fin 1) t) = m ((c : Thread nD τ).loc main_arg3) (ix1 t) := by
  obtain ⟨-, -, -, -, -, -, e0, e1, -⟩ := idx_facts n
  show (V m c main_v2 : S1x2048.Idx → EReal) (((cfg0.win 3).blk n).view.emb (ix2 (0 : Fin 1) t)) = _
  have he : ((cfg0.win 3).blk n).view.emb (ix2 (0 : Fin 1) t) = ix2 (0 : Fin 1) t := by
    funext a; apply Fin.ext
    match a with
    | ⟨0, _⟩ => show win0_3.index n (0 : Fin 2) * 1 + 1 * 0 = 0; omega
    | ⟨1, _⟩ => show win0_3.index n (1 : Fin 2) * 2048 + 1 * t.val = t.val; omega
  rw [he]
  refine (congrFun (V_bias m c) _).trans ?_
  exact shapeCast_a_1a_apply _ shapeCasts_S2048_S1x2048 (0 : Fin 1) t

theorem blkT_emb (c : Dev nD) (n : Fin cfg0.N) (t : Fin 2048) (j : Fin 1024) :
    blkT m c n (ix2 t j) = (V m c main_v5 : S2048x1024.Idx → EReal) (ix2 t j) := by
  obtain ⟨-, -, -, -, -, -, -, -, e0, e1, -⟩ := idx_facts n
  show (V m c main_v5 : S2048x1024.Idx → EReal) (((cfg0.win 4).blk n).view.emb (ix2 t j)) = _
  refine congrArg _ ?_
  funext a; apply Fin.ext
  match a with
  | ⟨0, _⟩ => show win0_4.index n (0 : Fin 2) * 2048 + 1 * t.val = t.val; omega
  | ⟨1, _⟩ => show win0_4.index n (1 : Fin 2) * 1024 + 1 * j.val = j.val; omega

/-! ## What a point writes back -/

theorem hz : (![0, 0] : Fin 2 → Nat) = fun _ => 0 := funext fun a => by fin_cases a <;> rfl

/-- The hypothesis the law needs: every logit is a real. -/
abbrev RealLogits : Prop := ∀ (c : Dev nD) (r : Fin 8192) (t : Fin 2048), ∃ z : ℝ,
  logit (m ((c : Thread nD τ).loc main_arg0)) (m ((c : Thread nD τ).loc main_arg2)) (m ((c : Thread nD τ).loc main_arg3)) r t = (z : EReal)

/-- The result function of the argument arrays on core `c`. -/
abbrev resultOf (c : Dev nD) : S8192x512.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- A block row's log complements are the array row's. -/
theorem logComplement_eq (hreal : RealLogits m) (c : Dev nD) (n : Fin cfg0.N) (p : Fin 512) (t : Fin 2048) :
    negSoftplus (blockLogit (blkX m c n) (blkW m c n) (blkB m c n) p t)
      = logOneMinusSigmoid (logit (m ((c : Thread nD τ).loc main_arg0)) (m ((c : Thread nD τ).loc main_arg2))
          (m ((c : Thread nD τ).loc main_arg3)) (rowOf n p) t) := by
  have hl : blockLogit (blkX m c n) (blkW m c n) (blkB m c n) p t
      = logit (m ((c : Thread nD τ).loc main_arg0)) (m ((c : Thread nD τ).loc main_arg2)) (m ((c : Thread nD τ).loc main_arg3)) (rowOf n p) t := by
    unfold blockLogit logit
    rw [blkB_apply]
    congr 1
    exact Finset.sum_congr rfl fun k _ => by rw [blkX_apply, blkW_apply]
  obtain ⟨z, hz'⟩ := hreal c (rowOf n p) t
  rw [hl, hz', negSoftplus_eq]

/-- WHAT POINT `n` WRITES BACK is block `n` of the result function. -/
theorem flushed_eq (hreal : RealLogits m) (c : Dev nD) (n : Fin cfg0.N) :
    (dats m 0 c).flushed 5 n = ((cfg0.win 5).blk n).view.read (Elt Ideal) (resultOf m c) := by
  rw [Cert.KernelIdeal.Value.flushed5]
  unfold out0_5
  rw [View.canon_unit_zero hz]
  simp only [View.ld_unit_zero (S := S512x128) hz, View.ld_unit_zero (S := S512x512) hz, View.ld_unit_zero (S := S128x2048) hz,
    View.ld_unit_zero (S := S1x2048) hz, View.ld_unit_zero (S := S2048x1024) hz]
  funext j
  obtain ⟨p, q, rfl⟩ : ∃ (p q : Fin 512), j = ix2 p q := ⟨j 0, j 1, eq_ix2 j⟩
  obtain ⟨-, -, -, -, -, -, -, -, -, -, e0, e1⟩ := idx_facts n
  have hemb : ((cfg0.win 5).blk n).view.emb (ix2 p q) = ix2 (rowOf n p) q := by
    funext a; apply Fin.ext
    match a with
    | ⟨0, _⟩ => show win0_5.index n (0 : Fin 2) * 512 + 1 * p.val = n.val * 512 + p.val; omega
    | ⟨1, _⟩ => show win0_5.index n (1 : Fin 2) * 512 + 1 * q.val = q.val; omega
  show k0_pay1 (k0_pay3 (blkX m c n) (blkW m c n) (blkB m c n) (blkT m c n))
      (k0_pay4 (blkX m c n) (blkW m c n) (blkB m c n) (blkT m c n) (blkA m c n)) (FloatOps.ofBits .f32 0x3F800000#32) (ix2 p q)
    = resultOf m c (((cfg0.win 5).blk n).view.emb (ix2 p q))
  rw [hemb]
  refine (payload_apply (blkX m c n) (blkA m c n) (blkW m c n) (blkB m c n) (blkT m c n) p q).trans ?_
  show _ = update _ (segSum _ _ q) (segSum _ _ q)
  rw [blkA_apply, ← sum_mul_onehot, ← sum_mul_onehot]
  congr 1
  · exact Finset.sum_congr rfl fun t _ => by rw [logComplement_eq m hreal, blkT_emb, table_from]
  · exact Finset.sum_congr rfl fun t _ => by rw [logComplement_eq m hreal, blkT_emb, table_to]

/-! ## The blocks tile the array -/

theorem mem_blk (n : Fin cfg0.N) (i : S8192x512.Idx) :
    i ∈ ((cfg0.win 5).blk n).view.set ↔ ∀ a : Fin 2, win0_5.index n a * S512x512.size a ≤ (i a).val
      ∧ (i a).val < win0_5.index n a * S512x512.size a + S512x512.size a := by
  show i ∈ ((View.whole main_v6).slice (win0_5.rect n)).set ↔ _
  rw [View.set_slice_whole, Rect.mem_set_unit]
  exact Iff.rfl

/-- Row r is in the block of point r / 512. -/
theorem cover (i : S8192x512.Idx) : ∃ n : Fin cfg0.N, (cfg0.win 5).flush n = true ∧ i ∈ ((cfg0.win 5).blk n).view.set := by
  have hi0 : (i 0).val < 8192 := (i 0).isLt
  have hi1 : (i 1).val < 512 := (i 1).isLt
  let n : Fin cfg0.N := ⟨(i 0).val / 512, by show (i 0).val / 512 < 16; omega⟩
  obtain ⟨-, -, -, -, -, -, -, -, -, -, e0, e1⟩ := idx_facts n
  have e0' : win0_5.index n (0 : Fin 2) = (i 0).val / 512 := e0
  refine ⟨n, flush0_5 n, ?_⟩
  rw [mem_blk]
  intro a
  match a with
  | ⟨0, _⟩ => show win0_5.index n (0 : Fin 2) * 512 ≤ (i 0).val ∧ (i 0).val < win0_5.index n (0 : Fin 2) * 512 + 512; omega
  | ⟨1, _⟩ => show win0_5.index n (1 : Fin 2) * 512 ≤ (i 1).val ∧ (i 1).val < win0_5.index n (1 : Fin 2) * 512 + 512; omega

/-! ## The array after the run, and the run -/

theorem final (hreal : RealLogits m) (c : Dev nD) : (dats m 0 c).arrAt 5 cfg0.N = resultOf m c :=
  (dats m 0 c).arrAt_eq_of_cover 5 (resultOf m c) (fun n _ => flushed_eq m hreal c n) cover

/-- Every weakly fair execution of the idealized kernel ends with the output array at the result function of the
    arguments, the arguments unchanged. -/
theorem run (hreal : RealLogits m) :
    θ_run defs (onTc (τ := τ) (main (F := Ideal))) ⟨m, fun _ => 0, ρ⟩ fun r => ∀ c : Dev nD,
      r.2.mem ((c : Thread nD τ).loc main_v6) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m hreal c), (h c).2⟩)
    (Cert.KernelIdeal.Value.run_blocks m ρ)

end Cert.KernelIdeal.ArrayValue

end
-- ==== Proof.lean ====
/-
  Kernel against reference: the fuzzy state-transition update  and (or (a, to), not from)  with

      from (r, s) = 1 − exp (∑ over t with from_idx t = s of log (1 − σ (z r t))),    to likewise over to_idx,
      z = input · W + b,

  as extended reals.  The reference computes exactly this: a logistic function, a log1p of its negation, two
  accumulating scatters over the transition axis, the update.  The kernel computes  −softplus z  in the stable
  form  −(max z 0 + log1p (e^(−|z|)))  and replaces each scatter by a product with a one-hot matrix built on the
  host by comparing index words with state numbers.

  Two laws join them.  (1) log (1 − σ z) = −softplus z  at a REAL z (module LibLogComplement): this is where the
  precondition is used — finite input, W and b make every logit a real (module FiniteInputs); the activations may
  be anything.  (2) A row times a one-hot column is the sum over the rows whose index word reads that state
  (module Spec), and the accumulating scatter read at an index is the same sum (module LibSegmentSum); an index
  word outside [0, 512) matches no state on either side.  Everything after the two sums is the same operations
  in the same order.

  The kernel's frames and the reference's run are generated; the idealization rewrote nothing.  By hand: the
  result function (Spec), the reference's stages read as that function (RefValue), one grid point's stored entry
  (KernelPayload), and the sixteen row blocks assembled into the whole output array (KernelArray).
-/
import proofs.«422131_j38835094291104_2_alg».proof.Defs
import proofs.«422131_j38835094291104_2_alg».proof.Proof.Gen.Kernel
import proofs.«422131_j38835094291104_2_alg».proof.Proof.Gen.Kernel.Skeleton
import proofs.«422131_j38835094291104_2_alg».proof.Proof.Gen.Kernel.Launch
import proofs.«422131_j38835094291104_2_alg».proof.Proof.Gen.Kernel.Points
import proofs.«422131_j38835094291104_2_alg».proof.Proof.Gen.Kernel.Frame
import proofs.«422131_j38835094291104_2_alg».proof.Proof.Gen.KernelIdeal
import proofs.«422131_j38835094291104_2_alg».proof.Proof.Gen.KernelIdeal.Skeleton
import proofs.«422131_j38835094291104_2_alg».proof.Proof.Gen.KernelIdeal.Launch
import proofs.«422131_j38835094291104_2_alg».proof.Proof.Gen.KernelIdeal.Points
import proofs.«422131_j38835094291104_2_alg».proof.Proof.Gen.KernelIdeal.Frame
import proofs.«422131_j38835094291104_2_alg».proof.Proof.Gen.ReferenceIdeal
import proofs.«422131_j38835094291104_2_alg».proof.Proof.Gen.Pre_finite_inputs
import proofs.«422131_j38835094291104_2_alg».proof.Proof.Gen.KernelIdeal.Value
import proofs.«422131_j38835094291104_2_alg».proof.Proof.Gen.ReferenceIdeal.Run
import proofs.«422131_j38835094291104_2_alg».proof.Proof.Gen.ReferenceIdeal.Read
import proofs.«422131_j38835094291104_2_alg».proof.Proof.FiniteInputs
import proofs.«422131_j38835094291104_2_alg».proof.Proof.RefValue
import proofs.«422131_j38835094291104_2_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel runs and leaves its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Under the precondition every logit of the idealized kernel's arguments is a real. -/
theorem realLogits (m : (ℓ : Loc Cert.KernelIdeal.nD Cert.KernelIdeal.τ Cert.KernelIdeal.sig) → Buf (Elt Ideal) ℓ)
    (hpre : Cert.Pre_KernelIdeal m) : Cert.KernelIdeal.ArrayValue.RealLogits m := fun c r t => by
  obtain ⟨hx, hW, hb⟩ := Cert.FiniteInputs.reals_of_pre _ _ _ _ _ _ (hpre c)
  exact Cert.FiniteInputs.logit_real hx hW hb r t

/-- Both idealized programs end with the result function of their (equal) arguments. -/
theorem algebraic : Cert.algebraic_KernelIdeal_ReferenceIdeal := by
  intro m ρ m' ρ' hpre hagree
  refine ⟨fun c => Cert.KernelIdeal.ArrayValue.resultOf m c, Cert.KernelIdeal.ArrayValue.run m ρ (realLogits m hpre), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefValue.reference_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
